-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x256 : Shape := ⟨2, ![8192, 256]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_v13 : IVec S_ 1) (main_v16 : IVec S8192x256 1) : IVec S_ 1 :=
  let main_c_5 : IVec S_ 1 := constantI S_ 1 1#1
  let main_v17 : IVec S_ 1 := (fun x v => Host.reduce IntOp.andi x v reducesTo_S8192x256_S_d0_1 h_S_) main_v16 main_c_5
  let main_v18 : IVec S_ 1 := andi main_v13 main_v17
  main_v18

def fn {F : FTy → Type} [FloatOps F] (main_arg0 : FVec F S8192x8192 .f32) (main_arg1 : FVec F S8192x8192 .f32) (main_arg2 : FVec F S8192x256 .f32) (main_arg3 : FVec F S8192x256 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x256 .f32 := Host.absf main_arg3
  let main_cst_4 : FVec F S_ .f32 := constant S_ .f32 0x7F800000#32
  let main_v15 : FVec F S8192x256 .f32 := broadcastInDim S8192x256 ![] bcast_S_S8192x256 main_cst_4
  let main_v16 : IVec S8192x256 1 := cmpf .olt main_v14 main_v15
  fn_part1 (F := F) main_v13 main_v16
-- ==== Kernel.lean ====
abbrev S8192x8192 : Shape := ⟨2, ![8192, 8192]⟩
abbrev S8192x256 : Shape := ⟨2, ![8192, 256]⟩
abbrev S1x1 : Shape := ⟨2, ![1, 1]⟩
abbrev S1024x256 : Shape := ⟨2, ![1024, 256]⟩
abbrev S1024x1024 : Shape := ⟨2, ![1024, 1024]⟩
abbrev S256x1024 : Shape := ⟨2, ![256, 1024]⟩
abbrev S1024 : Shape := ⟨1, ![1024]⟩
abbrev S1024x1 : Shape := ⟨2, ![1024, 1]⟩
abbrev S1 : Shape := ⟨1, ![1]⟩
abbrev S_ : Shape := ⟨0, ![]⟩

abbrev nBuf : Space → Nat
  | .hbm => 6
  | .vmem => 9
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x256, .f32⟩
  | .hbm, ⟨4, _⟩ => ⟨S1x1, .f32⟩
  | .hbm, ⟨5, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  transposes_S1024x256_p1_0_S256x1024 : S1024x256.Transposes [1, 0] S256x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  reduces_S1024x256_S1024 : S1024x256.Reduces [1] S1024
  shapeCasts_S1x1_S_ : S1x1.ShapeCasts S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .f32 = 32 ∨ (Rect.block (s := S8192x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192x256 : Shape := ⟨2, ![8192, 256]⟩
abbrev S256x8192 : Shape := ⟨2, ![256, 8192]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x256, .f32⟩
  | .hbm, ⟨3, _⟩ => ⟨S8192x256, .f32⟩
  | .hbm, ⟨4, _⟩ => ⟨S256x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S_, .f32⟩
  | .hbm, ⟨11, _⟩ => ⟨S8192x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x256, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]

class Facts₀ : Prop where
  transposes_S8192x256_S256x8192_1_0 : S8192x256.Transposes [1, 0] S256x8192
  reducesTo_S8192x8192_S_d0_1 : S8192x8192.ReducesTo [0, 1] S_
  h_S_ : 0 < S_.numel
  reducesTo_S8192x256_S_d0_1 : S8192x256.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BlockPieces.lean ====
/-
  What one run of the kernel body leaves in the one-entry output block, case by case, as a composition of the body's
  four store payloads: the reset (`k0_pay1`, the zero), the tile's masked squared error added to what the block held
  (`k0_pay2`), the weighted sum of squares of the row band of `U` added (`k0_pay3`), that of the row band of `V`
  added (`k0_pay4`). Every store covers the whole block, so the last store's payload is what the block ends with, and
  every load of the block after a store reads that store's payload.

    first point            : reset, then error, then both weighted sums
    rest of the first row  : error, then the `V` sum, over what the point before left
    first point of a row   : error, then the `U` sum, over what the point before left
    any other point        : error, over what the point before left
-/
import proofs.«120693_j80161269612812_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tiles

open Cert.KernelIdeal Cert.KernelIdeal.Gen

variable {F : FTy → Type} [FloatOps F]

theorem hz : (![0, 0] : Fin 2 → Nat) = fun _ => 0 := funext fun a => by fin_cases a <;> rfl

/-- Any other point: the block ends at the error payload over what it held. -/
theorem out_inner (c : Dev nD) (i : grid0.Coords) (a2 : Memref sig .tc .vmem S1024x256 .f32) (h2 : a2.IsWhole) (a3 : Memref sig .tc .vmem S1024x256 .f32) (h3 : a3.IsWhole) (a4 : Memref sig .tc .vmem S1024x1024 .f32) (h4 : a4.IsWhole) (a5 : Memref sig .tc .vmem S1024x1024 .f32) (h5 : a5.IsWhole) (a6 : Memref sig .tc .vmem S1x1 .f32) (h6 : a6.IsWhole) (hc0 : ¬cond0_0 i) (hc1 : ¬cond0_1 i) (hc2 : ¬cond0_2 i) (x0 x1 : Vec F S1024x256 .f32) (x2 x3 : Vec F S1024x1024 .f32) (xo : Vec F S1x1 .f32) :
    out0_D_4 c i a2 h2 a3 h3 a4 h4 a5 h5 a6 h6 hc0 hc1 hc2 x0 x1 x2 x3 xo = k0_pay2 x0 x1 x2 x3 xo := by
  unfold out0_D_4
  rw [View.read_writes_eq_canon _ _ _ (cover0_D_4 c i a2 h2 a3 h3 a4 h4 a5 h5 a6 h6 hc0 hc1 hc2 x0 x1 x2 x3 xo)]
  unfold kernelRun0_D
  dsimp only
  sl_unfold_words
  rw [View.canon_unit_zero hz]
  simp only [View.readAt_eq_ld, h2.read_unread, h3.read_unread, h4.read_unread, h5.read_unread, h6.read_unread,
    View.ld_unit_zero (S := S1024x256) hz, View.ld_unit_zero (S := S1024x1024) hz, View.ld_unit_zero (S := S1x1) hz]

/-- A later point of the first tile row: error, then the `V` band. -/
theorem out_firstRow (c : Dev nD) (i : grid0.Coords) (a2 : Memref sig .tc .vmem S1024x256 .f32) (h2 : a2.IsWhole) (a3 : Memref sig .tc .vmem S1024x256 .f32) (h3 : a3.IsWhole) (a4 : Memref sig .tc .vmem S1024x1024 .f32) (h4 : a4.IsWhole) (a5 : Memref sig .tc .vmem S1024x1024 .f32) (h5 : a5.IsWhole) (a6 : Memref sig .tc .vmem S1x1 .f32) (h6 : a6.IsWhole) (hc0 : ¬cond0_0 i) (hc1 : ¬cond0_1 i) (hc2 : cond0_2 i) (x0 x1 : Vec F S1024x256 .f32) (x2 x3 : Vec F S1024x1024 .f32) (xo : Vec F S1x1 .f32) :
    out0_B_4 c i a2 h2 a3 h3 a4 h4 a5 h5 a6 h6 hc0 hc1 hc2 x0 x1 x2 x3 xo = k0_pay4 x1 (k0_pay2 x0 x1 x2 x3 xo) := by
  unfold out0_B_4
  rw [View.read_writes_eq_canon _ _ _ (cover0_B_4 c i a2 h2 a3 h3 a4 h4 a5 h5 a6 h6 hc0 hc1 hc2 x0 x1 x2 x3 xo)]
  unfold kernelRun0_B
  dsimp only
  sl_unfold_words
  rw [View.canon_cons_unit_zero (S := S1x1) hz]
  simp only [View.readAt_eq_ld, h2.read_unread, h3.read_unread, h4.read_unread, h5.read_unread, h6.read_unread,
    View.ld_unit_zero (S := S1024x256) hz, View.ld_unit_zero (S := S1024x1024) hz, View.ld_unit_zero (S := S1x1) hz, View.readCov_cons_toLoadRect]

/-- The first point of a later tile row: error, then the `U` band. -/
theorem out_rowStart (c : Dev nD) (i : grid0.Coords) (a2 : Memref sig .tc .vmem S1024x256 .f32) (h2 : a2.IsWhole) (a3 : Memref sig .tc .vmem S1024x256 .f32) (h3 : a3.IsWhole) (a4 : Memref sig .tc .vmem S1024x1024 .f32) (h4 : a4.IsWhole) (a5 : Memref sig .tc .vmem S1024x1024 .f32) (h5 : a5.IsWhole) (a6 : Memref sig .tc .vmem S1x1 .f32) (h6 : a6.IsWhole) (hc0 : ¬cond0_0 i) (hc1 : cond0_1 i) (hc2 : ¬cond0_2 i) (x0 x1 : Vec F S1024x256 .f32) (x2 x3 : Vec F S1024x1024 .f32) (xo : Vec F S1x1 .f32) :
    out0_C_4 c i a2 h2 a3 h3 a4 h4 a5 h5 a6 h6 hc0 hc1 hc2 x0 x1 x2 x3 xo = k0_pay3 x0 (k0_pay2 x0 x1 x2 x3 xo) := by
  unfold out0_C_4
  rw [View.read_writes_eq_canon _ _ _ (cover0_C_4 c i a2 h2 a3 h3 a4 h4 a5 h5 a6 h6 hc0 hc1 hc2 x0 x1 x2 x3 xo)]
  unfold kernelRun0_C
  dsimp only
  sl_unfold_words
  rw [View.canon_cons_unit_zero (S := S1x1) hz]
  simp only [View.readAt_eq_ld, h2.read_unread, h3.read_unread, h4.read_unread, h5.read_unread, h6.read_unread,
    View.ld_unit_zero (S := S1024x256) hz, View.ld_unit_zero (S := S1024x1024) hz, View.ld_unit_zero (S := S1x1) hz, View.readCov_cons_toLoadRect]

/-- The first point: the reset, then error, then both bands. -/
theorem out_first (c : Dev nD) (i : grid0.Coords) (a2 : Memref sig .tc .vmem S1024x256 .f32) (h2 : a2.IsWhole) (a3 : Memref sig .tc .vmem S1024x256 .f32) (h3 : a3.IsWhole) (a4 : Memref sig .tc .vmem S1024x1024 .f32) (h4 : a4.IsWhole) (a5 : Memref sig .tc .vmem S1024x1024 .f32) (h5 : a5.IsWhole) (a6 : Memref sig .tc .vmem S1x1 .f32) (h6 : a6.IsWhole) (hc0 : cond0_0 i) (hc1 : cond0_1 i) (hc2 : cond0_2 i) (x0 x1 : Vec F S1024x256 .f32) (x2 x3 : Vec F S1024x1024 .f32) :
    out0_A_4 c i a2 h2 a3 h3 a4 h4 a5 h5 a6 h6 hc0 hc1 hc2 x0 x1 x2 x3
      = k0_pay4 x1 (k0_pay3 x0 (k0_pay2 x0 x1 x2 x3 (k0_pay1 (F := F)))) := by
  unfold out0_A_4
  rw [View.read_writes_eq_canon _ _ _ (cover0_A_4 c i a2 h2 a3 h3 a4 h4 a5 h5 a6 h6 hc0 hc1 hc2 x0 x1 x2 x3)]
  unfold kernelRun0_A
  dsimp only
  sl_unfold_words
  rw [View.canon_cons_unit_zero (S := S1x1) hz]
  simp only [View.readAt_eq_ld, h2.read_unread, h3.read_unread, h4.read_unread, h5.read_unread,
    View.ld_unit_zero (S := S1024x256) hz, View.ld_unit_zero (S := S1024x1024) hz, View.ld_unit_zero (S := S1x1) hz, View.readCov_cons_toLoadRect]

end Cert.KernelIdeal.Tiles

end
-- ==== Proof.ScalarSums.lean ====
/-
  A matrix summed to one number the way a kernel with `keepdims` sums does it: a lane reduction along each row
  ([n0, n1] → [n0]), the column of row sums viewed [n0, 1], a reduction down that column ([n0, 1] → [1]), the result
  viewed [1, 1]. On the extended reals each reduction is a plain finite sum and each view re-reads the same
  row-major position, so the one entry of the result is `∑ p, ∑ q, v (p, q)`.
-/
import Idealize.ShloMosaic.PureOps.Ideal.Laws
import Idealize.ShloMosaic.Lib.ValueIdx
import Idealize.ShloMosaic.Lib.Pipeline.Value

noncomputable section

namespace Cert.PmfLoss

open Idealize.ShloMosaic Idealize.ShloMosaic.ValueIdx

/-- The lane reduction along a row reads, at row `p`, the sum of that row. -/
theorem rowSums_apply {n0 n1 : ℕ} (v : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (p : Fin n0) :
    multiReduction .add [1] ⟨1, ![n0]⟩ v 0x00000000#32 h hφ hacc (ix1 p) = ∑ q : Fin n1, v (ix2 p q) :=
  (Ideal.multiReduction_add_single v _ h hφ hacc (ix1 p)).trans
    (Finset.sum_congr rfl fun q _ => congrArg v (funext fun a => by
      match a with
      | ⟨0, _⟩ => rfl
      | ⟨1, _⟩ => rfl))

/-- The reduction down a one-column matrix reads, at its one index, the sum of the column. -/
theorem colSum_apply {n0 : ℕ} (v : FVec Ideal ⟨2, ![n0, 1]⟩ .f32)
    (h : (⟨2, ![n0, 1]⟩ : Shape).Reduces [0] ⟨1, ![1]⟩) (hφ : FKind.Formats .f32)
    (hacc : (0x00000000#32 : BitVec 32) = FKind.add.neutral .f32 hφ) (z : Fin 1) :
    multiReduction .add [0] ⟨1, ![1]⟩ v 0x00000000#32 h hφ hacc (ix1 z) = ∑ p : Fin n0, v (ix2 p z) :=
  (Ideal.multiReduction_add_single v _ h hφ hacc (ix1 z)).trans
    (Finset.sum_congr rfl fun p _ => congrArg v (funext fun a => by
      match a with
      | ⟨0, _⟩ => rfl
      | ⟨1, _⟩ => rfl))

/-- A vector viewed as a one-column matrix reads, at `(p, 0)`, the vector at `p`. -/
theorem column_apply {α : Type} {n0 : ℕ} (x : (⟨1, ![n0]⟩ : Shape).Idx → α)
    (h : (⟨1, ![n0]⟩ : Shape).ShapeCasts ⟨2, ![n0, 1]⟩) (p : Fin n0) (z : Fin 1) :
    shapeCast ⟨2, ![n0, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A one-entry vector viewed as a one-entry matrix reads that entry. -/
theorem single_apply {α : Type} (x : (⟨1, ![1]⟩ : Shape).Idx → α)
    (h : (⟨1, ![1]⟩ : Shape).ShapeCasts ⟨2, ![1, 1]⟩) (j : (⟨2, ![1, 1]⟩ : Shape).Idx) :
    shapeCast ⟨2, ![1, 1]⟩ x h j = x (ix1 (0 : Fin 1)) :=
  shapeCast_apply x h _ _ (by
    have h0 : (j 0).val = 0 := by have := idx2_lt0 j; omega
    have h1 : (j 1).val = 0 := by have := idx2_lt1 j; omega
    rw [Shape.rowMajor_val_two, Shape.rowMajor_val_one]
    show 0 = (j 0).val * 1 + (j 1).val
    rw [h0, h1])

/-- The whole chain: the one entry of the [1, 1] result is the double sum of the matrix. -/
theorem sumToScalar_apply {n0 n1 : ℕ} (v : FVec Ideal ⟨2, ![n0, n1]⟩ .f32)
    (h1 : (⟨2, ![n0, n1]⟩ : Shape).Reduces [1] ⟨1, ![n0]⟩) (h2 : (⟨1, ![n0]⟩ : Shape).ShapeCasts ⟨2, ![n0, 1]⟩)
    (h3 : (⟨2, ![n0, 1]⟩ : Shape).Reduces [0] ⟨1, ![1]⟩) (h4 : (⟨1, ![1]⟩ : Shape).ShapeCasts ⟨2, ![1, 1]⟩)
    (hφ : FKind.Formats .f32) (hacc : (0x00000000#32 : BitVec 32) = FKind.add.neutral .f32 hφ)
    (j : (⟨2, ![1, 1]⟩ : Shape).Idx) :
    shapeCast ⟨2, ![1, 1]⟩
        (multiReduction .add [0] ⟨1, ![1]⟩
          (shapeCast ⟨2, ![n0, 1]⟩ (multiReduction .add [1] ⟨1, ![n0]⟩ v 0x00000000#32 h1 hφ hacc) h2)
          0x00000000#32 h3 hφ hacc) h4 j
      = ∑ p : Fin n0, ∑ q : Fin n1, v (ix2 p q) :=
  (single_apply _ h4 j).trans <| (colSum_apply _ h3 hφ hacc 0).trans <|
    Finset.sum_congr rfl fun p _ => (column_apply _ h2 p 0).trans (rowSums_apply v h1 hφ hacc p)

end Cert.PmfLoss

end
-- ==== Proof.LossAlgebra.lean ====
/-
  The probabilistic-matrix-factorisation loss as arithmetic on the extended reals, free of any program.

  For a masked squared error `E r s` over an 8192 × 8192 matrix and two tables `A`, `B` of squares over
  8192 × 256, the loss is `(∑ E + c · ∑ A) + c · ∑ B`. A tiled evaluation walks the 8 × 8 grid of 1024 × 1024 tiles
  in row-major order, point `n` being tile `(n / 8, n % 8)`, and keeps one running total: every point adds its tile's
  error; the first point of each tile row (`n % 8 = 0`) also adds `c` times that band's share of `∑ A`; each point
  of the first tile row (`n < 8`) also adds `c` times that band's share of `∑ B`. Addition on the extended reals is
  commutative and associative, and a non-negative finite `c` distributes over any sum, so after the last point the
  running total is the loss, with no finiteness assumption on the summands.
-/
import Idealize.ShloMosaic.PureOps.Ideal

noncomputable section

namespace Cert.PmfLoss

open scoped BigOperators

/-- Row `p` of band `a` of 1024 consecutive rows (bands are counted modulo 8 so that the function is total). -/
def bandRow (a : ℕ) (p : Fin 1024) : Fin 8192 :=
  ⟨(a % 8) * 1024 + p.val, by have := p.isLt; have := Nat.mod_lt a (by decide : 0 < 8); omega⟩

theorem bandRow_val (a : ℕ) (p : Fin 1024) : (bandRow a p).val = (a % 8) * 1024 + p.val := rfl

/-- A non-negative finite factor distributes over any finite sum of extended reals: induction on the index set,
each step being distributivity of such a factor over one addition. -/
private theorem mul_sum_of_nonneg_of_ne_top {ι : Type} (c : EReal) (h0 : 0 ≤ c) (ht : c ≠ ⊤) (s : Finset ι)
    (f : ι → EReal) : c * ∑ i ∈ s, f i = ∑ i ∈ s, c * f i := by
  induction s using Finset.cons_induction with
  | empty => simp
  | cons a s ha ih =>
    rw [Finset.sum_cons, Finset.sum_cons, EReal.left_distrib_of_nonneg_of_ne_top h0 ht, ih]

/-- Summing over the first `m * 8` naturals by quotient and remainder modulo 8 is summing over an `m × 8` rectangle:
induction on `m`, the last 8 indices `m * 8 + b` having quotient `m` and remainder `b`. -/
private theorem sum_range_mul_eight {M : Type} [AddCommMonoid M] (f : ℕ → ℕ → M) (m : ℕ) :
    ∑ t ∈ Finset.range (m * 8), f (t / 8) (t % 8) = ∑ a ∈ Finset.range m, ∑ b ∈ Finset.range 8, f a b := by
  induction m with
  | zero => simp
  | succ m ih =>
    rw [Finset.sum_range_succ (fun a => ∑ b ∈ Finset.range 8, f a b) m, Nat.add_one_mul, Finset.sum_range_add, ih]
    congr 1
    apply Finset.sum_congr rfl
    intro b hb
    have hb' : b < 8 := Finset.mem_range.mp hb
    have h1 : (m * 8 + b) / 8 = m := by omega
    have h2 : (m * 8 + b) % 8 = b := by omega
    rw [h1, h2]

/-- Band and row-within-band determine the row, and every row arises: the map is injective between two sets of
8192 elements. -/
private theorem bandRow_pair_bijective :
    Function.Bijective (fun x : Fin 8 × Fin 1024 => bandRow x.1.val x.2) := by
  rw [Fintype.bijective_iff_injective_and_card]
  constructor
  · rintro ⟨a, p⟩ ⟨a', p'⟩ h
    have hv := congrArg Fin.val h
    simp only [bandRow_val] at hv
    have ha := a.isLt
    have ha' := a'.isLt
    have hp := p.isLt
    have hp' := p'.isLt
    have h2 : a.val = a'.val ∧ p.val = p'.val := by omega
    exact Prod.ext (Fin.ext h2.1) (Fin.ext h2.2)
  · simp

/-- A sum over all 8192 rows is the sum over the 8 bands of the sums over the 1024 rows of each band. -/
private theorem sum_bands {M : Type} [AddCommMonoid M] (g : Fin 8192 → M) :
    ∑ r, g r = ∑ a ∈ Finset.range 8, ∑ p : Fin 1024, g (bandRow a p) := by
  rw [Finset.sum_range (fun a => ∑ p : Fin 1024, g (bandRow a p)),
    ← Fintype.sum_prod_type' (fun (a : Fin 8) (p : Fin 1024) => g (bandRow a.val p))]
  exact (Fintype.sum_bijective _ bandRow_pair_bijective _ _ (fun _ => rfl)).symm

section Tiled

variable (E : Fin 8192 → Fin 8192 → EReal) (A B : Fin 8192 → Fin 256 → EReal) (c : EReal)

/-- The error summed over tile `(a, b)`. -/
def tileErr (a b : ℕ) : EReal := ∑ p : Fin 1024, ∑ q : Fin 1024, E (bandRow a p) (bandRow b q)

/-- A table summed over band `a` of its rows. -/
def bandSum (T : Fin 8192 → Fin 256 → EReal) (a : ℕ) : EReal := ∑ p : Fin 1024, ∑ k : Fin 256, T (bandRow a p) k

/-- The running total after grid point `n`. -/
def running : ℕ → EReal
  | 0 => ((0 + tileErr E 0 0) + c * bandSum A 0) + c * bandSum B 0
  | n + 1 =>
    if (n + 1) % 8 = 0 then (running n + tileErr E ((n + 1) / 8) ((n + 1) % 8)) + c * bandSum A ((n + 1) / 8)
    else if n + 1 < 8 then (running n + tileErr E ((n + 1) / 8) ((n + 1) % 8)) + c * bandSum B ((n + 1) % 8)
    else running n + tileErr E ((n + 1) / 8) ((n + 1) % 8)

theorem running_zero :
    running E A B c 0 = ((0 + tileErr E 0 0) + c * bandSum A 0) + c * bandSum B 0 := by
  rw [running]

/-- A point that opens a tile row (other than the first point). -/
theorem running_rowStart (n : ℕ) (h : (n + 1) % 8 = 0) :
    running E A B c (n + 1)
      = (running E A B c n + tileErr E ((n + 1) / 8) ((n + 1) % 8)) + c * bandSum A ((n + 1) / 8) := by
  rw [running, if_pos h]

/-- A later point of the first tile row. -/
theorem running_firstRow (n : ℕ) (h : ¬(n + 1) % 8 = 0) (h' : n + 1 < 8) :
    running E A B c (n + 1)
      = (running E A B c n + tileErr E ((n + 1) / 8) ((n + 1) % 8)) + c * bandSum B ((n + 1) % 8) := by
  rw [running, if_neg h, if_pos h']

/-- Any other point. -/
theorem running_inner (n : ℕ) (h : ¬(n + 1) % 8 = 0) (h' : ¬n + 1 < 8) :
    running E A B c (n + 1) = running E A B c n + tileErr E ((n + 1) / 8) ((n + 1) % 8) := by
  rw [running, if_neg h, if_neg h']

/-- The running total after point `n` is the sum over the points `t ≤ n` of what point `t` adds: its tile's error,
the band's share of the first table when `t` opens a tile row, the band's share of the second table when `t` lies in
the first tile row. Induction on `n` through the defining equations; a point `n + 1` that opens a tile row is at
least 8, so it is not in the first tile row. -/
private theorem running_eq_sum (n : ℕ) :
    running E A B c n
      = ∑ t ∈ Finset.range (n + 1),
          ((tileErr E (t / 8) (t % 8) + (if t % 8 = 0 then c * bandSum A (t / 8) else 0))
            + (if t / 8 = 0 then c * bandSum B (t % 8) else 0)) := by
  induction n with
  | zero => simp [running_zero]
  | succ n ih =>
    rw [Finset.sum_range_succ, ← ih]
    by_cases h : (n + 1) % 8 = 0
    · have h' : ¬(n + 1) / 8 = 0 := by omega
      rw [running_rowStart E A B c n h, if_pos h, if_neg h', add_zero, add_assoc]
    · by_cases h' : n + 1 < 8
      · have h'' : (n + 1) / 8 = 0 := by omega
        rw [running_firstRow E A B c n h h', if_neg h, if_pos h'', add_zero, add_assoc]
      · have h'' : ¬(n + 1) / 8 = 0 := by omega
        rw [running_inner E A B c n h h', if_neg h, if_neg h'', add_zero, add_zero]

/-- After the last point the running total is the sum of all tile errors, plus the sum over the bands of the
shares of the first table, plus the same for the second table: re-index the 64 points as the 8 × 8 grid, split
the sum of three-term summands into three sums, and drop the zero terms. -/
private theorem running_last_grid :
    running E A B c 63
      = ((∑ a ∈ Finset.range 8, ∑ b ∈ Finset.range 8, tileErr E a b)
          + ∑ a ∈ Finset.range 8, c * bandSum A a)
        + ∑ b ∈ Finset.range 8, c * bandSum B b := by
  have hre := sum_range_mul_eight
    (fun a b => (tileErr E a b + (if b = 0 then c * bandSum A a else 0))
      + (if a = 0 then c * bandSum B b else 0)) 8
  have h64 : (63 : ℕ) + 1 = 8 * 8 := by norm_num
  rw [running_eq_sum, h64]
  refine hre.trans ?_
  simp only [Finset.sum_add_distrib]
  congr 1
  · congr 1
    apply Finset.sum_congr rfl
    intro a _
    simp [Finset.sum_ite_eq']
  · rw [Finset.sum_comm]
    apply Finset.sum_congr rfl
    intro b _
    simp [Finset.sum_ite_eq']

/-- The tile errors over the grid add up to the error over the whole matrix: split the rows into bands, then
the columns into bands, and exchange the sum over a band's rows with the sum over the column bands. -/
private theorem sum_tileErr :
    ∑ a ∈ Finset.range 8, ∑ b ∈ Finset.range 8, tileErr E a b
      = ∑ r : Fin 8192, ∑ s : Fin 8192, E r s := by
  rw [sum_bands (fun r => ∑ s : Fin 8192, E r s)]
  apply Finset.sum_congr rfl
  intro a _
  simp only [tileErr]
  rw [Finset.sum_comm]
  apply Finset.sum_congr rfl
  intro p _
  rw [sum_bands (fun s => E (bandRow a p) s)]

/-- The band shares of a table add up to the sum over the whole table. -/
private theorem sum_bandSum (T : Fin 8192 → Fin 256 → EReal) :
    ∑ a ∈ Finset.range 8, bandSum T a = ∑ r : Fin 8192, ∑ k : Fin 256, T r k := by
  rw [sum_bands (fun r => ∑ k : Fin 256, T r k)]
  simp only [bandSum]

/-- After the last of the 64 points the running total is the loss. -/
theorem running_last (h0 : 0 ≤ c) (ht : c ≠ ⊤) :
    running E A B c 63
      = ((∑ r : Fin 8192, ∑ s : Fin 8192, E r s) + c * ∑ r : Fin 8192, ∑ k : Fin 256, A r k)
        + c * ∑ r : Fin 8192, ∑ k : Fin 256, B r k := by
  rw [running_last_grid, sum_tileErr, ← mul_sum_of_nonneg_of_ne_top c h0 ht,
    ← mul_sum_of_nonneg_of_ne_top c h0 ht, sum_bandSum, sum_bandSum]

end Tiled

end Cert.PmfLoss

end
-- ==== Proof.LossTerms.lean ====
/-
  The loss's summands read off the four argument arrays, and the regularisation weight.

  `errAt` is the masked squared error at one matrix entry, `I · (R − U Vᵀ) · (R − U Vᵀ)` with the product
  `U Vᵀ` at `(r, s)` the sum over the 256 latent coordinates; `sqAt` is one squared table entry. The weight is the
  binary32 number nearest 0.01: a finite non-negative real, which is all the algebra uses of it.
-/
import proofs.«120693_j80161269612812_1_alg».proof.Proof.LossAlgebra
import Idealize.ShloMosaic.Lib.ValueIdx

noncomputable section

namespace Cert.PmfLoss

open Idealize.ShloMosaic Idealize.ShloMosaic.ValueIdx

/-- Matrices and tables as the programs hold them. -/
abbrev Mat : Type := (⟨2, ![8192, 8192]⟩ : Shape).Idx → EReal
abbrev Tab : Type := (⟨2, ![8192, 256]⟩ : Shape).Idx → EReal

/-- The reconstruction `(U Vᵀ)(r, s)`. -/
def predAt (U V : Tab) (r s : Fin 8192) : EReal := ∑ k : Fin 256, U (ix2 r k) * V (ix2 s k)

/-- The masked squared error at `(r, s)`. -/
def errAt (R I : Mat) (U V : Tab) (r s : Fin 8192) : EReal :=
  I (ix2 r s) * (R (ix2 r s) - predAt U V r s) * (R (ix2 r s) - predAt U V r s)

/-- One squared entry of a table. -/
def sqAt (T : Tab) (r : Fin 8192) (k : Fin 256) : EReal := T (ix2 r k) * T (ix2 r k)

/-- The regularisation weight both programs spell: the binary32 pattern of 0.01. -/
def weight : EReal := Ideal.ofBits .f32 0x3C23D70A#32

/-- The pattern has sign 0, exponent 120 and fraction 2348810: the real `10737418 · 2⁻³⁰`. -/
theorem weight_eq : weight = ((10737418 / 2 ^ 30 : ℝ) : EReal) := by
  unfold weight
  simp [Ideal.ofBits, Ideal.ieee, -EReal.coe_mul]
  norm_num

theorem weight_nonneg : 0 ≤ weight := by
  rw [weight_eq]; exact EReal.coe_nonneg.mpr (by positivity)

theorem weight_ne_top : weight ≠ ⊤ := by
  rw [weight_eq]; exact EReal.coe_ne_top _

/-- The loss: total masked squared error plus the two weighted sums of squares, grouped as the reference adds them. -/
def loss (R I : Mat) (U V : Tab) : EReal :=
  ((∑ r : Fin 8192, ∑ s : Fin 8192, errAt R I U V r s) + weight * ∑ r : Fin 8192, ∑ k : Fin 256, sqAt U r k)
    + weight * ∑ r : Fin 8192, ∑ k : Fin 256, sqAt V r k

/-- The tiled running total ends at the loss. -/
theorem running_loss (R I : Mat) (U V : Tab) :
    running (errAt R I U V) (sqAt U) (sqAt V) weight 63 = loss R I U V :=
  running_last _ _ _ _ weight_nonneg weight_ne_top

end Cert.PmfLoss

end
-- ==== Proof.TileValue.lean ====
/-
  The kernel body's four store payloads read at the extended reals, each at the one entry of the output block.

  The bf16 casts are the identity there, the matrix unit's product into a zero accumulator is the plain sum over the 256
  latent coordinates of `x0 (p, k) · x1 (q, k)` (the second operand is transposed before the product), and the two
  `keepdims` sums collapse a matrix to the double sum of its entries. So the error payload adds to what the block held
  the sum over the tile of `x3 · (x2 − x0 x1ᵀ) · (x2 − x0 x1ᵀ)`, each regularisation payload adds the weight times the sum
  of squares of its block, and the reset payload is zero.
-/
import proofs.«120693_j80161269612812_1_alg».proof.Proof.Gen.KernelIdeal.Skeleton
import proofs.«120693_j80161269612812_1_alg».proof.Proof.ScalarSums
import proofs.«120693_j80161269612812_1_alg».proof.Proof.LossTerms
import Idealize.ShloMosaic.Lib.ValueLayout
import Idealize.ShloMosaic.PureOps.Ideal.Laws

noncomputable section

namespace Cert.KernelIdeal.TileValue

open Cert.KernelIdeal Cert.KernelIdeal.Gen Idealize.ShloMosaic Idealize.ShloMosaic.ValueIdx Cert.PmfLoss

/-! ## The product's operand indices, axis by axis -/

theorem lhs_dot_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_dot_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_dot_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_dot_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The body's product `x0 · x1ᵀ` at `(p, q)`: the sum over the latent coordinate. -/
theorem product_apply (x0 x1 : FVec Ideal S1024x256 .f32) (p q : Fin 1024) :
    matmul dot_S1024x256_S256x1024_S1024x1024_1_0_0_1_n_n none (truncf .bf16 x0 bitsLt_bf16_f32)
        (transpose S256x1024 [1, 0] (truncf .bf16 x1 bitsLt_bf16_f32) transposes_S1024x256_p1_0_S256x1024)
        (constant S1024x1024 .f32 0x00000000#32) (ix2 p q)
      = ∑ k : Fin 256, x0 (ix2 p k) * x1 (ix2 q k) := by
  refine (Ideal.matmul_constant_zero_apply _ none _ _ _).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q := funext fun a => Fin.ext (by
    match a with
    | ⟨0, _⟩ => exact (rhs_dot_0 _ _).trans hk
    | ⟨1, _⟩ => exact rhs_dot_1 _ _)
  rw [el, er, transpose_ix2_apply]
  rfl

/-! ## The payloads at the block's entry -/

/-- The masked squared error of one tile entry from the tile's four blocks. -/
def blockErr (x0 x1 : FVec Ideal S1024x256 .f32) (x2 x3 : FVec Ideal S1024x1024 .f32) (p q : Fin 1024) : EReal :=
  x3 (ix2 p q) * (x2 (ix2 p q) - ∑ k : Fin 256, x0 (ix2 p k) * x1 (ix2 q k))
    * (x2 (ix2 p q) - ∑ k : Fin 256, x0 (ix2 p k) * x1 (ix2 q k))

/-- The reset payload is zero. -/
theorem reset_apply (j : S1x1.Idx) : k0_pay1 (F := Ideal) j = 0 := Ideal.ofBits_zero_f32

/-- The error payload: what the block held plus the tile's error. -/
theorem error_apply (x0 x1 : FVec Ideal S1024x256 .f32) (x2 x3 : FVec Ideal S1024x1024 .f32) (xo : FVec Ideal S1x1 .f32)
    (j : S1x1.Idx) :
    k0_pay2 (F := Ideal) x0 x1 x2 x3 xo j = xo j + ∑ p : Fin 1024, ∑ q : Fin 1024, blockErr x0 x1 x2 x3 p q := by
  unfold k0_pay2
  dsimp only
  refine (addf_apply _ _ j).trans ?_
  refine congrArg₂ (· + ·) (congrFun (shapeCast_self xo _) j) ?_
  refine (sumToScalar_apply _ _ _ _ _ _ _ j).trans ?_
  refine Finset.sum_congr rfl fun p _ => Finset.sum_congr rfl fun q _ => ?_
  unfold blockErr
  rw [← product_apply x0 x1 p q]
  rfl

/-- A regularisation payload: what the block held plus the weight times the block's sum of squares. -/
theorem squares3_apply (x0 : FVec Ideal S1024x256 .f32) (xo : FVec Ideal S1x1 .f32) (j : S1x1.Idx) :
    k0_pay3 (F := Ideal) x0 xo j = xo j + weight * ∑ p : Fin 1024, ∑ k : Fin 256, x0 (ix2 p k) * x0 (ix2 p k) := by
  unfold k0_pay3
  dsimp only
  refine (addf_apply _ _ j).trans ?_
  refine congrArg₂ (· + ·) (congrFun (shapeCast_self xo _) j) ?_
  refine (mulf_apply _ _ j).trans ?_
  exact congrArg₂ (· * ·) rfl (sumToScalar_apply _ _ _ _ _ _ _ j)

theorem squares4_apply (x1 : FVec Ideal S1024x256 .f32) (xo : FVec Ideal S1x1 .f32) (j : S1x1.Idx) :
    k0_pay4 (F := Ideal) x1 xo j = xo j + weight * ∑ p : Fin 1024, ∑ k : Fin 256, x1 (ix2 p k) * x1 (ix2 p k) := by
  unfold k0_pay4
  dsimp only
  refine (addf_apply _ _ j).trans ?_
  refine congrArg₂ (· + ·) (congrFun (shapeCast_self xo _) j) ?_
  refine (mulf_apply _ _ j).trans ?_
  exact congrArg₂ (· * ·) rfl (sumToScalar_apply _ _ _ _ _ _ _ j)

end Cert.KernelIdeal.TileValue

end
-- ==== Proof.RunningTotal.lean ====
/-
  The output block after every grid point is the tiled running total of the loss.

  Point `t` of the 8 × 8 grid is tile `(t / 8, t % 8)`: its `U` block is row band `t / 8` of `U`, its `V` block row band
  `t % 8` of `V`, its `R` and `I` blocks the tile's entries. So the tile's block error is the loss's tile error, and
  the blocks' sums of squares are the band shares of the two tables; with the case-by-case contents of the block
  (what each run of the body leaves, over what the point before left) the block's one entry after point `n` is
  `running … n`, by induction on `n`.
-/
import proofs.«120693_j80161269612812_1_alg».proof.Proof.Gen.KernelIdeal.Frame
import proofs.«120693_j80161269612812_1_alg».proof.Proof.BlockPieces
import proofs.«120693_j80161269612812_1_alg».proof.Proof.TileValue

noncomputable section

open Idealize.ShloMosaic Idealize.ShloMosaic.TcCoe Idealize.SL.Sem

namespace Cert.KernelIdeal.Accumulated

open Cert.KernelIdeal Cert.KernelIdeal.Gen Idealize.ShloMosaic.ValueIdx Cert.PmfLoss
open Cert.KernelIdeal.Tiles Cert.KernelIdeal.TileValue

variable (m : (ℓ : Loc nD τ sig) → Buf (Elt Ideal) ℓ)

/-! ## The arrays and the blocks, at their literal types -/

abbrev arrR (c : Dev nD) : Mat := V m c main_arg0
abbrev arrI (c : Dev nD) : Mat := V m c main_arg1
abbrev arrU (c : Dev nD) : Tab := V m c main_arg2
abbrev arrV (c : Dev nD) : Tab := V m c main_arg3

abbrev blkU (c : Dev nD) (t : Fin cfg0.N) : FVec Ideal S1024x256 .f32 := iblk m c 0 t
abbrev blkV (c : Dev nD) (t : Fin cfg0.N) : FVec Ideal S1024x256 .f32 := iblk m c 1 t
abbrev blkR (c : Dev nD) (t : Fin cfg0.N) : FVec Ideal S1024x1024 .f32 := iblk m c 2 t
abbrev blkI (c : Dev nD) (t : Fin cfg0.N) : FVec Ideal S1024x1024 .f32 := iblk m c 3 t

/-! ## Which block each window holds at a point: decided over the grid -/

theorem idxU : ∀ t : Fin cfg0.N, win0_0.index t 0 = t.val / 8 ∧ win0_0.index t 1 = 0 :=
  (by decide +kernel : ∀ t : Fin grid0.N, win0_0.index t 0 = t.val / 8 ∧ win0_0.index t 1 = 0)
theorem idxV : ∀ t : Fin cfg0.N, win0_1.index t 0 = t.val % 8 ∧ win0_1.index t 1 = 0 :=
  (by decide +kernel : ∀ t : Fin grid0.N, win0_1.index t 0 = t.val % 8 ∧ win0_1.index t 1 = 0)
theorem idxR : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem idxI : ∀ t : Fin cfg0.N, win0_3.index t 0 = t.val / 8 ∧ win0_3.index t 1 = t.val % 8 :=
  (by decide +kernel : ∀ t : Fin grid0.N, win0_3.index t 0 = t.val / 8 ∧ win0_3.index t 1 = t.val % 8)

theorem lt64 (t : Fin cfg0.N) : t.val < 64 := lt_of_lt_of_eq t.isLt (show cfg0.N = 64 from N_0)

/-! ## The blocks read off the arrays -/

theorem blkU_apply (c : Dev nD) (t : Fin cfg0.N) (p : Fin 1024) (k : Fin 256) :
    blkU m c t (ix2 p k) = arrU m c (ix2 (bandRow (t.val / 8) p) k) := by
  have hN := lt64 t
  show iblk m c 0 t (ix2 p k) = _
  unfold iblk
  rw [View.read_apply]
  show V m c main_arg2 _ = V m c main_arg2 _
  congr 1
  funext a
  apply Fin.ext
  match a with
  | ⟨0, _⟩ => show win0_0.index t 0 * 1024 + 1 * p.val = (t.val / 8 % 8) * 1024 + p.val; rw [(idxU t).1]; omega
  | ⟨1, _⟩ => show win0_0.index t 1 * 256 + 1 * k.val = k.val; rw [(idxU t).2]; omega

theorem blkV_apply (c : Dev nD) (t : Fin cfg0.N) (q : Fin 1024) (k : Fin 256) :
    blkV m c t (ix2 q k) = arrV m c (ix2 (bandRow (t.val % 8) q) k) := by
  have hN := lt64 t
  show iblk m c 1 t (ix2 q k) = _
  unfold iblk
  rw [View.read_apply]
  show V m c main_arg3 _ = V m c main_arg3 _
  congr 1
  funext a
  apply Fin.ext
  match a with
  | ⟨0, _⟩ => show win0_1.index t 0 * 1024 + 1 * q.val = (t.val % 8 % 8) * 1024 + q.val; rw [(idxV t).1]; omega
  | ⟨1, _⟩ => show win0_1.index t 1 * 256 + 1 * k.val = k.val; rw [(idxV t).2]; omega

theorem blkR_apply (c : Dev nD) (t : Fin cfg0.N) (p q : Fin 1024) :
    blkR m c t (ix2 p q) = arrR m c (ix2 (bandRow (t.val / 8) p) (bandRow (t.val % 8) q)) := by
  have hN := lt64 t
  show iblk m c 2 t (ix2 p q) = _
  unfold iblk
  rw [View.read_apply]
  show V m c main_arg0 _ = V m c main_arg0 _
  congr 1
  funext a
  apply Fin.ext
  match a with
  | ⟨0, _⟩ => show win0_2.index t 0 * 1024 + 1 * p.val = (t.val / 8 % 8) * 1024 + p.val; rw [(idxR t).1]; omega
  | ⟨1, _⟩ => show win0_2.index t 1 * 1024 + 1 * q.val = (t.val % 8 % 8) * 1024 + q.val; rw [(idxR t).2]; omega

theorem blkI_apply (c : Dev nD) (t : Fin cfg0.N) (p q : Fin 1024) :
    blkI m c t (ix2 p q) = arrI m c (ix2 (bandRow (t.val / 8) p) (bandRow (t.val % 8) q)) := by
  have hN := lt64 t
  show iblk m c 3 t (ix2 p q) = _
  unfold iblk
  rw [View.read_apply]
  show V m c main_arg1 _ = V m c main_arg1 _
  congr 1
  funext a
  apply Fin.ext
  match a with
  | ⟨0, _⟩ => show win0_3.index t 0 * 1024 + 1 * p.val = (t.val / 8 % 8) * 1024 + p.val; rw [(idxI t).1]; omega
  | ⟨1, _⟩ => show win0_3.index t 1 * 1024 + 1 * q.val = (t.val % 8 % 8) * 1024 + q.val; rw [(idxI t).2]; omega

/-! ## A point's three contributions -/

/-- The loss's error term over the arrays of core `c`. -/
abbrev errOf (c : Dev nD) : Fin 8192 → Fin 8192 → EReal := errAt (arrR m c) (arrI m c) (arrU m c) (arrV m c)

/-- The running total over the arrays of core `c`. -/
abbrev total (c : Dev nD) (n : ℕ) : EReal := running (errOf m c) (sqAt (arrU m c)) (sqAt (arrV m c)) weight n

theorem tile_sum (c : Dev nD) (t : Fin cfg0.N) :
    ∑ p : Fin 1024, ∑ q : Fin 1024, blockErr (blkU m c t) (blkV m c t) (blkR m c t) (blkI m c t) p q
      = tileErr (errOf m c) (t.val / 8) (t.val % 8) := by
  unfold tileErr
  refine Finset.sum_congr rfl fun p _ => Finset.sum_congr rfl fun q _ => ?_
  show blockErr (blkU m c t) (blkV m c t) (blkR m c t) (blkI m c t) p q
    = errAt (arrR m c) (arrI m c) (arrU m c) (arrV m c) (bandRow (t.val / 8) p) (bandRow (t.val % 8) q)
  unfold blockErr errAt predAt
  simp only [blkU_apply, blkV_apply, blkR_apply, blkI_apply]

theorem bandU_sum (c : Dev nD) (t : Fin cfg0.N) :
    ∑ p : Fin 1024, ∑ k : Fin 256, blkU m c t (ix2 p k) * blkU m c t (ix2 p k) = bandSum (sqAt (arrU m c)) (t.val / 8) := by
  unfold bandSum
  refine Finset.sum_congr rfl fun p _ => Finset.sum_congr rfl fun k _ => ?_
  unfold sqAt
  simp only [blkU_apply]

theorem bandV_sum (c : Dev nD) (t : Fin cfg0.N) :
    ∑ p : Fin 1024, ∑ k : Fin 256, blkV m c t (ix2 p k) * blkV m c t (ix2 p k) = bandSum (sqAt (arrV m c)) (t.val % 8) := by
  unfold bandSum
  refine Finset.sum_congr rfl fun p _ => Finset.sum_congr rfl fun k _ => ?_
  unfold sqAt
  simp only [blkV_apply]

/-! ## The block's entry after a point, case by case -/

/-- What the point before left. -/
abbrev before (c : Dev nD) (t : Fin cfg0.N) : Vec Ideal S1x1 .f32 :=
  outsAt0 m c (t.val - 1) (Nat.lt_of_le_of_lt (Nat.sub_le _ _) t.isLt)

theorem point_first (c : Dev nD) (t : Fin cfg0.N) (h0 : t.val % 64 = 0) (h1 : t.val % 8 = 0) (h2 : t.val < 8) (j : S1x1.Idx) :
    outsAt0 m c t.val t.isLt j
      = ((0 + tileErr (errOf m c) (t.val / 8) (t.val % 8)) + weight * bandSum (sqAt (arrU m c)) (t.val / 8))
        + weight * bandSum (sqAt (arrV m c)) (t.val % 8) := by
  refine (congrFun ((outsAt0_A m c t h0 h1 h2).trans
    (out_first (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) ((hcond0_1 t).mpr h1) ((hcond0_2 t).mpr h2)
      (blkU m c t) (blkV m c t) (blkR m c t) (blkI m c t))) j).trans ?_
  rw [squares4_apply, squares3_apply, error_apply, reset_apply, tile_sum, bandU_sum, bandV_sum]

theorem point_firstRow (c : Dev nD) (t : Fin cfg0.N) (h0 : ¬t.val % 64 = 0) (h1 : ¬t.val % 8 = 0) (h2 : t.val < 8) (j : S1x1.Idx) :
    outsAt0 m c t.val t.isLt j
      = (before m c t j + tileErr (errOf m c) (t.val / 8) (t.val % 8)) + weight * bandSum (sqAt (arrV m c)) (t.val % 8) := by
  refine (congrFun ((outsAt0_B m c t h0 h1 h2).trans
    (out_firstRow (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) ((hcond0_2 t).mpr h2)
      (blkU m c t) (blkV m c t) (blkR m c t) (blkI m c t) (before m c t))) j).trans ?_
  rw [squares4_apply, error_apply, tile_sum, bandV_sum]

theorem point_rowStart (c : Dev nD) (t : Fin cfg0.N) (h0 : ¬t.val % 64 = 0) (h1 : t.val % 8 = 0) (h2 : ¬t.val < 8) (j : S1x1.Idx) :
    outsAt0 m c t.val t.isLt j
      = (before m c t j + tileErr (errOf m c) (t.val / 8) (t.val % 8)) + weight * bandSum (sqAt (arrU m c)) (t.val / 8) := by
  refine (congrFun ((outsAt0_C m c t h0 h1 h2).trans
    (out_rowStart (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) ((hcond0_1 t).mpr h1) (fun h => h2 ((hcond0_2 t).mp h))
      (blkU m c t) (blkV m c t) (blkR m c t) (blkI m c t) (before m c t))) j).trans ?_
  rw [squares3_apply, error_apply, tile_sum, bandU_sum]

theorem point_inner (c : Dev nD) (t : Fin cfg0.N) (h0 : ¬t.val % 64 = 0) (h1 : ¬t.val % 8 = 0) (h2 : ¬t.val < 8) (j : S1x1.Idx) :
    outsAt0 m c t.val t.isLt j = before m c t j + tileErr (errOf m c) (t.val / 8) (t.val % 8) := by
  refine (congrFun ((outsAt0_D m c t h0 h1 h2).trans
    (out_inner (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (fun h => h1 ((hcond0_1 t).mp h)) (fun h => h2 ((hcond0_2 t).mp h))
      (blkU m c t) (blkV m c t) (blkR m c t) (blkI m c t) (before m c t))) j).trans ?_
  rw [error_apply, tile_sum]

/-! ## The induction over the points -/

/-- What the point before point `n + 1` left is the block after point `n`. -/
theorem before_succ (c : Dev nD) (n : ℕ) (hn : n + 1 < cfg0.N) :
    before m c ⟨n + 1, hn⟩ = outsAt0 m c n (Nat.lt_of_succ_lt hn) := rfl

theorem outsAt_zero (c : Dev nD) (hn : 0 < cfg0.N) (j : S1x1.Idx) : outsAt0 m c 0 hn j = total m c 0 := by
  have h := point_first m c ⟨0, hn⟩ rfl rfl (show (0 : ℕ) < 8 by decide) j
  dsimp only at h
  rw [Nat.zero_div, Nat.zero_mod] at h
  exact h.trans (running_zero (errOf m c) (sqAt (arrU m c)) (sqAt (arrV m c)) weight).symm

theorem outsAt_succ (c : Dev nD) (n : ℕ) (hn : n + 1 < cfg0.N) (j : S1x1.Idx)
    (ih : outsAt0 m c n (Nat.lt_of_succ_lt hn) j = total m c n) : outsAt0 m c (n + 1) hn j = total m c (n + 1) := by
  have hN : n + 1 < 64 := lt_of_lt_of_eq hn (show cfg0.N = 64 from N_0)
  have h0 : ¬(n + 1) % 64 = 0 := by omega
  have hb : before m c ⟨n + 1, hn⟩ j = total m c n := (congrFun (before_succ m c n hn) j).trans ih
  by_cases h1 : (n + 1) % 8 = 0
  · have h2 : ¬n + 1 < 8 := by omega
    have h := point_rowStart m c ⟨n + 1, hn⟩ h0 h1 h2 j
    rw [hb] at h
    exact h.trans (running_rowStart (errOf m c) (sqAt (arrU m c)) (sqAt (arrV m c)) weight n h1).symm
  · by_cases h2 : n + 1 < 8
    · have h := point_firstRow m c ⟨n + 1, hn⟩ h0 h1 h2 j
      rw [hb] at h
      exact h.trans (running_firstRow (errOf m c) (sqAt (arrU m c)) (sqAt (arrV m c)) weight n h1 h2).symm
    · have h := point_inner m c ⟨n + 1, hn⟩ h0 h1 h2 j
      rw [hb] at h
      exact h.trans (running_inner (errOf m c) (sqAt (arrU m c)) (sqAt (arrV m c)) weight n h1 h2).symm

/-- After point `n` the block's entry is the running total after `n` points. -/
theorem outsAt_eq (c : Dev nD) (n : ℕ) : ∀ (hn : n < cfg0.N) (j : S1x1.Idx), outsAt0 m c n hn j = total m c n := by
  induction n with
  | zero => exact fun hn j => outsAt_zero m c hn j
  | succ n ih => exact fun hn j => outsAt_succ m c n hn j (ih (Nat.lt_of_succ_lt hn) j)

end Cert.KernelIdeal.Accumulated

end
-- ==== Proof.KernelLoss.lean ====
/-
  The idealized kernel's run, read as a value: its scalar result is the loss.

  The output window's one block is written back once, after the last grid point, and that block is the whole
  one-entry array; so the array ends holding the running total after all 64 points. The host operation after the
  region views that [1, 1] array as a scalar, which reads the same entry.
-/
import proofs.«120693_j80161269612812_1_alg».proof.Proof.RunningTotal
import Idealize.ShloMosaic.Lib.StableHlo.Run

noncomputable section

open Idealize.ShloMosaic Idealize.ShloMosaic.TcCoe Idealize.SL.Sem
open Idealize.ShloMosaic.Pipeline (Dat)

namespace Cert.KernelIdeal.LossValue

open Cert.KernelIdeal Cert.KernelIdeal.Gen Idealize.ShloMosaic.ValueIdx Cert.PmfLoss Cert.KernelIdeal.Accumulated

variable (m : (ℓ : Loc nD τ sig) → Buf (Elt Ideal) ℓ) (ρ : Dev nD → PrngReg)

/-- The kernel's loss on core `c`: the running total after the last point. -/
abbrev kernelLoss (c : Dev nD) : EReal := total m c 63

/-- The one-entry result array. -/
abbrev resultVec (c : Dev nD) : Vec Ideal S1x1 .f32 := fun _ => kernelLoss m c
abbrev result (c : Dev nD) : Buf (Elt Ideal) ((c : Thread nD τ).loc main_v0) := resultVec m c

theorem last_lt : 63 < cfg0.N := by rw [show cfg0.N = 64 from N_0]; decide

/-- The last grid point. -/
abbrev tLast : Fin cfg0.N := ⟨63, last_lt⟩

/-- The output block sits at offset zero and has the array's extents, on both axes. -/
theorem block_facts : ∀ a : Fin 2, win0_4.index tLast a * win0_4.size a = 0 ∧ win0_4.xsize (grid0.coords tLast) a = 1 := by
  decide +kernel

/-- The one write-back, after the last point, writes the running total. -/
theorem flushed_eq (c : Dev nD) (t : Fin cfg0.N) (hf : (cfg0.win 4).flush t = true) :
    (dats m 0 c).flushed 4 t = ((cfg0.win 4).blk t).view.read (Elt Ideal) (result m c) := by
  have h63 : t.val = 63 := by have := (flush0_4 t).mp hf; have := lt64 t; omega
  obtain rfl : t = tLast := Fin.ext h63
  have e : (dats m 0 c).after 4 tLast = result m c :=
    (after0_4 m c tLast).trans (funext fun j => outsAt_eq m c 63 last_lt j)
  show (cfg0.win 4).cut (grid0.coords tLast) ((dats m 0 c).after 4 tLast) = _
  rw [e]
  have hz' : (fun a => win0_4.index tLast a * main_v0.ty.shape.size a) = fun _ => 0 :=
    funext fun a => (block_facts a).1
  exact (Memref.read_access_unit_zero (Elt Ideal) main_v0 hz' (fun a => by rw [congrFun hz' a]; simp) (result m c)).symm

/-- So the result array ends holding it: the last point's block covers the array. -/
theorem final_o (c : Dev nD) : (dats m 0 c).arrAt 4 cfg0.N = result m c :=
  (dats m 0 c).arrAt_eq_of_cover 4 (result m c) (flushed_eq m c) fun i =>
    ⟨tLast, (flush0_4 tLast).mpr rfl, by
      show i ∈ ((View.whole main_v0).slice (win0_4.rect tLast)).set
      rw [View.set_slice_whole, Rect.mem_set_unit]
      intro a
      have hi : (i a : Nat) < 1 := by
        match a with
        | ⟨0, _⟩ => exact (i 0).isLt
        | ⟨1, _⟩ => exact (i 1).isLt
      show win0_4.index tLast a * win0_4.size a ≤ (i a : Nat)
        ∧ (i a : Nat) < win0_4.index tLast a * win0_4.size a + win0_4.xsize (grid0.coords tLast) a
      rw [(block_facts a).1, (block_facts a).2]
      omega⟩

/-- The scalar the host reads off the array after the region: the [1, 1] array viewed as rank 0. -/
theorem tail_eq (c : Dev nD) :
    Pipeline.afterTail₀ cfgs (dats m) 0 (V0 m) [hostOps1] c main_v1 = fun _ => kernelLoss m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.tc.devRef main_v0)
      = result m c :=
    (Pipeline.withArrays_arr spec0 launch0.win.arr_inj c _ _ 4).trans (final_o m c)
  rw [e]
  rfl

/-- Every weakly fair execution of the idealized kernel ends with its scalar result at the running total after the last
    point, the four arguments unchanged. -/
theorem run : θ_run defs (onTc (τ := τ) (main (F := Ideal))) ⟨m, fun _ => 0, ρ⟩ fun r => ∀ c : Dev nD,
      r.2.mem ((c.tc : Thread nD τ).loc main_v1) = (fun _ => kernelLoss m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v1 (Pipeline.mem_restRefs_of main_v1 rfl (by decide))).trans (tail_eq m c),
        ((h c).1 2).trans (((dats m 0 c).arrAt_in 2 rfl _).trans ((A_eq m c 2).trans (V_main_arg0 m c))),
        ((h c).1 3).trans (((dats m 0 c).arrAt_in 3 rfl _).trans ((A_eq m c 3).trans (V_main_arg1 m c))),
        ((h c).1 0).trans (((dats m 0 c).arrAt_in 0 rfl _).trans ((A_eq m c 0).trans (V_main_arg2 m c))),
        ((h c).1 1).trans (((dats m 0 c).arrAt_in 1 rfl _).trans ((A_eq m c 1).trans (V_main_arg3 m c)))⟩)
    (run_main m ρ)

/-- The kernel's result is the loss of its four arguments: the tiled running total ends at the loss. -/
theorem kernelLoss_eq (c : Dev nD) :
    kernelLoss m c
      = loss (m ((c.tc : Thread nD τ).loc main_arg0)) (m ((c.tc : Thread nD τ).loc main_arg1))
          (m ((c.tc : Thread nD τ).loc main_arg2)) (m ((c.tc : Thread nD τ).loc main_arg3)) :=
  running_loss _ _ _ _

end Cert.KernelIdeal.LossValue

end
-- ==== Proof.ReferenceLoss.lean ====
/-
  The reference's run, read as a value: its scalar result is the loss.

  One operation at a time: the transposed second table read at `(k, s)` is the table at `(s, k)`, the host's
  `dot_general` at `(r, s)` is the sum over the latent coordinate, the three elementwise operations give the masked
  squared error at each entry, and each total reduction is zero plus the sum over every index, which over a rank-2
  index set is the double sum over the coordinates. The two weighted sums of squares are added in the reference's order.
-/
import proofs.«120693_j80161269612812_1_alg».proof.Proof.Gen.ReferenceIdeal.Run
import proofs.«120693_j80161269612812_1_alg».proof.Proof.Gen.ReferenceIdeal.Read
import proofs.«120693_j80161269612812_1_alg».proof.Proof.LossTerms

noncomputable section

open Idealize.ShloMosaic Idealize.ShloMosaic.TcCoe Idealize.SL.Sem

namespace Cert.ReferenceIdeal.LossValue

open Cert.ReferenceIdeal Cert.ReferenceIdeal.Gen Cert.ReferenceIdeal.Read Idealize.ShloMosaic.ValueIdx Cert.PmfLoss

/-- The product's left operand index at entry `(r, s)` and latent coordinate `k` is `(r, k)`. -/
theorem lidx_eq (r s : Fin 8192) (k : Fin 256) : lidx_main_v1 (ix2 r s) k = ix2 r k :=
  funext fun a => by
    match a with
    | ⟨0, _⟩ => rfl
    | ⟨1, _⟩ => rfl

/-- The right operand is the transposed table at `(k, s)`: the table at `(s, k)`. -/
theorem ridx_eq (r s : Fin 8192) (k : Fin 256) : idx_main_v0 (ridx_main_v1 (ix2 r s) k) = ix2 s k :=
  funext fun a => by
    match a with
    | ⟨0, _⟩ => rfl
    | ⟨1, _⟩ => rfl

/-- The reference's reconstruction at `(r, s)`. -/
theorem pred_eq (U V : Tab) (r s : Fin 8192) : val_main_v1 (F := Ideal) U V (ix2 r s) = predAt U V r s := by
  rw [val_main_v1_apply]
  unfold predAt
  refine Finset.sum_congr rfl fun k _ => ?_
  rw [val_main_v0_apply, lidx_eq, ridx_eq]

/-- The reference's masked squared error at `(r, s)`. -/
theorem err_eq (R I : Mat) (U V : Tab) (r s : Fin 8192) : val_main_v4 (F := Ideal) R I U V (ix2 r s) = errAt R I U V r s := by
  rw [val_main_v4_apply, val_main_v3_apply, val_main_v2_apply, pred_eq]
  rfl

/-- The reference's result is the loss of its four arguments. -/
theorem reference_loss (R I : Mat) (U V : Tab) (i : S_.Idx) : val_main_v13 (F := Ideal) R I U V i = loss R I U V := by
  rw [val_main_v13_apply, val_main_v9_apply, val_main_v12_apply, val_main_v8_apply, val_main_v5_apply, val_main_v7_apply,
    val_main_v11_apply, sum_idx2, sum_idx2, sum_idx2]
  simp only [val_main_cst_apply, val_main_cst_0_apply, val_main_cst_1_apply, val_main_cst_2_apply, val_main_cst_3_apply,
    err_eq, val_main_v6_apply, val_main_v10_apply, Ideal.addf_def, Ideal.mulf_def, Ideal.ofBits_def, Ideal.ofBits_zero_f32,
    zero_add]
  rfl

/-- Every weakly fair execution of the reference ends with its result at the loss of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13)
          = (fun _ => loss (m ((c.tc : Thread nD τ).loc main_arg0)) (m ((c.tc : Thread nD τ).loc main_arg1))
              (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans ((val_main_v13_eq _ _ _ _).trans (funext fun i => reference_loss _ _ _ _ i)), (h c).2⟩)
    (Cert.ReferenceIdeal.Value.run (F := Ideal) m ρ)

end Cert.ReferenceIdeal.LossValue

end
-- ==== Proof.lean ====
/-
  The certificate's claim: a tiled Pallas evaluation of the probabilistic-matrix-factorisation loss

      sum (I · (R − U Vᵀ)²) + λ · ‖U‖² + λ · ‖V‖²,     λ the binary32 number nearest 0.01,

  against its jnp reference, over the extended reals.

  The kernel walks an 8 × 8 grid of 1024 × 1024 tiles with one scalar accumulator kept across all 64 points: every point
  adds its tile's masked squared error, the first point of each tile row adds λ times the sum of squares of that row
  band of `U`, each point of the first tile row adds λ times the sum of squares of that row band of `V`. The reference
  forms the whole product, sums the masked squared error over the matrix, and adds the two weighted sums of squares.
  At the ideal instance both are the same extended real: the bf16 casts are the identity, the matrix unit's product into
  a zero accumulator and the host's `dot_general` are the same sum over the latent coordinate, finite sums of extended
  reals commute and associate, and the non-negative finite weight distributes over a sum. No finiteness of the inputs is
  used for the value; the precondition is only carried along.

  The three frames are the generated ones (the reference's is its generated run with the result dropped); the
  idealization rewrote nothing, so `preserves` is trivial; `algebraic` puts the kernel's run and the reference's run side
  by side, both ending at `Cert.PmfLoss.loss` of arguments that agree.
-/
import proofs.«120693_j80161269612812_1_alg».proof.Defs
import proofs.«120693_j80161269612812_1_alg».proof.Proof.Gen.Kernel
import proofs.«120693_j80161269612812_1_alg».proof.Proof.Gen.Kernel.Skeleton
import proofs.«120693_j80161269612812_1_alg».proof.Proof.Gen.Kernel.Launch
import proofs.«120693_j80161269612812_1_alg».proof.Proof.Gen.Kernel.Points
import proofs.«120693_j80161269612812_1_alg».proof.Proof.Gen.Kernel.Frame
import proofs.«120693_j80161269612812_1_alg».proof.Proof.Gen.KernelIdeal
import proofs.«120693_j80161269612812_1_alg».proof.Proof.Gen.KernelIdeal.Skeleton
import proofs.«120693_j80161269612812_1_alg».proof.Proof.Gen.KernelIdeal.Launch
import proofs.«120693_j80161269612812_1_alg».proof.Proof.Gen.KernelIdeal.Points
import proofs.«120693_j80161269612812_1_alg».proof.Proof.Gen.KernelIdeal.Frame
import proofs.«120693_j80161269612812_1_alg».proof.Proof.Gen.ReferenceIdeal
import proofs.«120693_j80161269612812_1_alg».proof.Proof.Gen.ReferenceIdeal.Run
import proofs.«120693_j80161269612812_1_alg».proof.Proof.Gen.Pre_finite_inputs
import proofs.«120693_j80161269612812_1_alg».proof.Proof.KernelLoss
import proofs.«120693_j80161269612812_1_alg».proof.Proof.ReferenceLoss
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the loss of their arguments, and the arguments agree. -/
theorem algebraic : Cert.algebraic_KernelIdeal_ReferenceIdeal := by
  intro m ρ m' ρ' _ hagree
  refine ⟨fun c => fun _ => Cert.KernelIdeal.LossValue.kernelLoss m c, Cert.KernelIdeal.LossValue.run m ρ, ?_⟩
  refine (θ_run Cert.ReferenceIdeal.defs _ _).mono (fun _ h c => ⟨(h c).1.trans ?_, (h c).2⟩)
    (Cert.ReferenceIdeal.LossValue.run m' ρ')
  rw [(hagree c).1, (hagree c).2.1, (hagree c).2.2.1, (hagree c).2.2.2]
  exact funext fun _ => (Cert.KernelIdeal.LossValue.kernelLoss_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
